-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000x1 : Shape := ⟨2, ![100000, 1]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S256x128 .f32) (main_arg8 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S100000x1 .f32) (main_arg4 : FVec F S100000x1 .f32) (main_arg5 : FVec F S256x128 .f32) (main_arg6 : FVec F S128 .f32) (main_arg7 : FVec F S256x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg3
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x1 .f32 := Host.absf main_arg4
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S100000x1 : Shape := ⟨2, ![100000, 1]⟩
abbrev S256x128 : Shape := ⟨2, ![256, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S102400x128 : Shape := ⟨2, ![102400, 128]⟩
abbrev S102400x1 : Shape := ⟨2, ![102400, 1]⟩
abbrev S128x128 : Shape := ⟨2, ![128, 128]⟩
abbrev S4096x128 : Shape := ⟨2, ![4096, 128]⟩
abbrev S4096x1 : Shape := ⟨2, ![4096, 1]⟩
abbrev S1x128 : Shape := ⟨2, ![1, 128]⟩

abbrev nBuf : Space → Nat
  | .hbm => 40
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000x1, .f32⟩
  | .hbm, ⟨4, _⟩ => ⟨S100000x1, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .i32⟩
  | .hbm, ⟨23, _⟩ => ⟨S_, .f32⟩
  | .hbm, ⟨24, _⟩ => ⟨S102400x128, .f32⟩
  | .hbm, ⟨25, _⟩ => ⟨S_, .i32⟩
  | .hbm, ⟨26, _⟩ => ⟨S_, .f32⟩
  | .hbm, ⟨27, _⟩ => ⟨S102400x128, .f32⟩
  | .hbm, ⟨28, _⟩ => ⟨S_, .i32⟩
  | .hbm, ⟨29, _⟩ => ⟨S_, .f32⟩
  | .hbm, ⟨30, _⟩ => ⟨S102400x1, .f32⟩
  | .hbm, ⟨31, _⟩ => ⟨S_, .i32⟩
  | .hbm, ⟨32, _⟩ => ⟨S_, .f32⟩
  | .hbm, ⟨33, _⟩ => ⟨S102400x1, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S102400x128, .f32⟩
  | .hbm, ⟨39, _⟩ => ⟨S100000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x1, .f32⟩
  | .local _ .vmem, ⟨5, _⟩ => ⟨S4096x1, .f32⟩
  | .local _ .vmem, ⟨6, _⟩ => ⟨S4096x1, .f32⟩
  | .local _ .vmem, ⟨7, _⟩ => ⟨S4096x1, .f32⟩
  | .local _ .vmem, ⟨8, _⟩ => ⟨S128x128, .f32⟩
  | .local _ .vmem, ⟨9, _⟩ => ⟨S128x128, .f32⟩
  | .local _ .vmem, ⟨10, _⟩ => ⟨S128, .f32⟩
  | .local _ .vmem, ⟨11, _⟩ => ⟨S128x128, .f32⟩
  | .local _ .vmem, ⟨12, _⟩ => ⟨S128x128, .f32⟩
  | .local _ .vmem, ⟨13, _⟩ => ⟨S128, .f32⟩
  | .local _ .vmem, ⟨14, _⟩ => ⟨S4096x128, .f32⟩
  | .local _ .vmem, ⟨15, _⟩ => ⟨S4096x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call0_v0 : Ref sig .tc := ⟨.hbm, 23, rfl⟩
abbrev main_v10 : Ref sig .tc := ⟨.hbm, 24, rfl⟩
abbrev main_c_2 : Ref sig .tc := ⟨.hbm, 25, rfl⟩
abbrev main_call1_v0 : Ref sig .tc := ⟨.hbm, 26, rfl⟩
abbrev main_v11 : Ref sig .tc := ⟨.hbm, 27, rfl⟩
abbrev main_c_3 : Ref sig .tc := ⟨.hbm, 28, rfl⟩
abbrev main_call2_v0 : Ref sig .tc := ⟨.hbm, 29, rfl⟩
abbrev main_v12 : Ref sig .tc := ⟨.hbm, 30, rfl⟩
abbrev main_c_4 : Ref sig .tc := ⟨.hbm, 31, rfl⟩
abbrev main_call3_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  pads_S100000x128_S102400x128_024000_000 : S100000x128.Pads (![0, 0] : Fin 2 → Nat) ![2400, 0] ![0, 0] S102400x128
  h_S_ : 0 < S_.numel
  pads_S100000x1_S102400x1_024000_000 : S100000x1.Pads (![0, 0] : Fin 2 → Nat) ![2400, 0] ![0, 0] S102400x1
  slices_S256x128_S128x128_0_0 : S256x128.Slices ![0, 0] S128x128
  slices_S256x128_S128x128_128_0 : S256x128.Slices ![128, 0] S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  slices_S102400x128_S100000x128_0_0 : S102400x128.Slices ![0, 0] S100000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S102400x128.size a
  hwx0_1 : ∀ i : grid0.Coords, EltTy.bits .f32 = 32 ∨ (Rect.block (s := S102400x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S102400x1.size a
  hwx0_2 : ∀ i : grid0.Coords, EltTy.bits .f32 = 32 ∨ (Rect.block (s := S102400x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S102400x1.size a
  hwx0_3 : ∀ i : grid0.Coords, EltTy.bits .f32 = 32 ∨ (Rect.block (s := S102400x1) S4096x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x128.size a ≤ S102400x128.size a
  hwx0_10 : ∀ i : grid0.Coords, EltTy.bits .f32 = 32 ∨ (Rect.block (s := S102400x128) S4096x128.size (cc0_transform_10 i) (hinb0_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v10) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S4096x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000x1 : Shape := ⟨2, ![100000, 1]⟩
abbrev S256x128 : Shape := ⟨2, ![256, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000x256 : Shape := ⟨2, ![100000, 256]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000x1, .f32⟩
  | .hbm, ⟨4, _⟩ => ⟨S100000x1, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x256, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.NodeUpdate.lean ====
/-
  The node update of one message-passing layer, entry by entry, on the extended reals.

  A node r carries its own feature row X(r, ·) and the sum SF(r, ·) of the feature rows of its in-neighbours, both of
  width 128. A linear head applies a 256 × 128 weight matrix W to the joined row [X(r, ·), SF(r, ·)] and adds a bias b:

      head(r, j) = Σ_{l < 128} X(r, l)·W(l, j) + Σ_{l < 128} SF(r, l)·W(128 + l, j) + b(j).

  The layer has two such heads, an incoming one and an outgoing one, and weighs them per node:

      update(r, j) = out_w(r)·head_out(r, j) + in_w(r)·head_in(r, j).

  The same formula is written twice: over the whole weight matrix (`head`, `update`), and over its upper and lower
  128 × 128 halves as two matrices of their own (`headHalves`, `updateHalves`). A sum over 256 terms is the sum over
  the first 128 plus the sum over the last 128 (`sum_two_halves`): addition of extended reals is commutative and
  associative, so no finiteness is asked of any entry.
-/
import Mathlib.Algebra.BigOperators.Fin
import Idealize.ShloMosaic.PureOps.Ideal
import Idealize.ShloMosaic.Lib.ValueIdx

noncomputable section

namespace Cert.NodeUpdate

open Idealize.ShloMosaic Idealize.ShloMosaic.ValueIdx

/-- Row `l` of the upper half of a 256-row matrix. -/
abbrev upper (l : Fin 128) : Fin 256 := ⟨l.val, by have := l.isLt; omega⟩
/-- Row `l` of the lower half of a 256-row matrix: row `128 + l`. -/
abbrev lower (l : Fin 128) : Fin 256 := ⟨128 + l.val, by have := l.isLt; omega⟩

/-- A sum over 256 terms is the sum over the first 128 plus the sum over the last 128. -/
theorem sum_two_halves (f : Fin 256 → EReal) :
    ∑ k : Fin 256, f k = ∑ l : Fin 128, f (upper l) + ∑ l : Fin 128, f (lower l) :=
  Fin.sum_univ_add (a := 128) (b := 128) f

variable {n : ℕ}

/-- One head over the two halves of its weight matrix, given as two 128 × 128 matrices. -/
def headHalves (X SF : (⟨2, ![n, 128]⟩ : Shape).Idx → EReal) (Wt Wb : (⟨2, ![128, 128]⟩ : Shape).Idx → EReal)
    (b : (⟨1, ![128]⟩ : Shape).Idx → EReal) (r : Fin n) (j : Fin 128) : EReal :=
  (∑ l : Fin 128, X (ix2 r l) * Wt (ix2 l j) + ∑ l : Fin 128, SF (ix2 r l) * Wb (ix2 l j)) + b (ix1 j)

/-- The update over the halves of both weight matrices. -/
def updateHalves (X SF : (⟨2, ![n, 128]⟩ : Shape).Idx → EReal) (inw outw : (⟨2, ![n, 1]⟩ : Shape).Idx → EReal)
    (Wit Wib : (⟨2, ![128, 128]⟩ : Shape).Idx → EReal) (bi : (⟨1, ![128]⟩ : Shape).Idx → EReal)
    (Wot Wob : (⟨2, ![128, 128]⟩ : Shape).Idx → EReal) (bo : (⟨1, ![128]⟩ : Shape).Idx → EReal)
    (r : Fin n) (j : Fin 128) : EReal :=
  outw (ix2 r (0 : Fin 1)) * headHalves X SF Wot Wob bo r j + inw (ix2 r (0 : Fin 1)) * headHalves X SF Wit Wib bi r j

/-- One head over its whole 256 × 128 weight matrix. -/
def head (X SF : (⟨2, ![n, 128]⟩ : Shape).Idx → EReal) (W : (⟨2, ![256, 128]⟩ : Shape).Idx → EReal)
    (b : (⟨1, ![128]⟩ : Shape).Idx → EReal) (r : Fin n) (j : Fin 128) : EReal :=
  (∑ l : Fin 128, X (ix2 r l) * W (ix2 (upper l) j) + ∑ l : Fin 128, SF (ix2 r l) * W (ix2 (lower l) j)) + b (ix1 j)

/-- The update: the outgoing head weighed by `out_w` plus the incoming head weighed by `in_w`, as one array. -/
def update (X SF : (⟨2, ![n, 128]⟩ : Shape).Idx → EReal) (inw outw : (⟨2, ![n, 1]⟩ : Shape).Idx → EReal)
    (Wi : (⟨2, ![256, 128]⟩ : Shape).Idx → EReal) (bi : (⟨1, ![128]⟩ : Shape).Idx → EReal)
    (Wo : (⟨2, ![256, 128]⟩ : Shape).Idx → EReal) (bo : (⟨1, ![128]⟩ : Shape).Idx → EReal) :
    (⟨2, ![n, 128]⟩ : Shape).Idx → EReal := fun i =>
  outw (ix2 (i 0) (0 : Fin 1)) * head X SF Wo bo (i 0) (i 1) + inw (ix2 (i 0) (0 : Fin 1)) * head X SF Wi bi (i 0) (i 1)

/-- A head over halves that are the upper and lower halves of one matrix is the head over that matrix. -/
theorem headHalves_eq_head (X SF : (⟨2, ![n, 128]⟩ : Shape).Idx → EReal) (Wt Wb : (⟨2, ![128, 128]⟩ : Shape).Idx → EReal)
    (W : (⟨2, ![256, 128]⟩ : Shape).Idx → EReal) (b : (⟨1, ![128]⟩ : Shape).Idx → EReal)
    (ht : ∀ l j, Wt (ix2 l j) = W (ix2 (upper l) j)) (hb : ∀ l j, Wb (ix2 l j) = W (ix2 (lower l) j))
    (r : Fin n) (j : Fin 128) : headHalves X SF Wt Wb b r j = head X SF W b r j := by
  unfold headHalves head
  simp only [ht, hb]

/-- The contraction of a joined row [X(r, ·), SF(r, ·)] with a 256 × 128 matrix, however its two index maps are spelt, is
    the contraction of X(r, ·) with the upper half plus that of SF(r, ·) with the lower half. -/
theorem joined_contraction (J : (⟨2, ![n, 256]⟩ : Shape).Idx → EReal) (X SF : (⟨2, ![n, 128]⟩ : Shape).Idx → EReal)
    (hU : ∀ r l, J (ix2 r (upper l)) = X (ix2 r l)) (hL : ∀ r l, J (ix2 r (lower l)) = SF (ix2 r l))
    (W : (⟨2, ![256, 128]⟩ : Shape).Idx → EReal) (r : Fin n) (j : Fin 128)
    (li : Fin 256 → (⟨2, ![n, 256]⟩ : Shape).Idx) (ri : Fin 256 → (⟨2, ![256, 128]⟩ : Shape).Idx)
    (hli : ∀ k, li k = ix2 r k) (hri : ∀ k, ri k = ix2 k j) :
    ∑ k : Fin 256, J (li k) * W (ri k)
      = ∑ l : Fin 128, X (ix2 r l) * W (ix2 (upper l) j) + ∑ l : Fin 128, SF (ix2 r l) * W (ix2 (lower l) j) := by
  rw [sum_two_halves]
  simp only [hli, hri, hU, hL]

end Cert.NodeUpdate

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.BodyValue.lean ====
/-
  What one grid step of the kernel leaves in its output block, entry by entry, at the ideal values.

  A grid step holds 4096 node rows: the block `x` of node features and the block `sf` of aggregated neighbour features
  (4096 × 128 each), the columns `inw` and `outw` of per-node weights (4096 × 1), and, whole, the four 128 × 128 halves
  of the two weight matrices and the two bias vectors. It forms each head as (x·W_top + sf·W_bot) + bias — two matrix
  products into a zero accumulator, which at the ideal values are the plain sums over the 128 contracted entries, the
  change of format to bf16 being the identity there — and stores outw·head_out + inw·head_in. Entry (p, q) of the stored
  block is therefore `updateHalves` of the blocks at (p, q).
-/
import proofs.«102750_j79525614453056_1_alg».proof.Proof.Gen.KernelIdeal.Frame
import proofs.«102750_j79525614453056_1_alg».proof.Proof.NodeUpdate
import proofs.«102750_j79525614453056_1_alg».proof.Proof.LibDenseLayer
import proofs.«102750_j79525614453056_1_alg».proof.Proof.LibRowOps
import Idealize.ShloMosaic.Lib.Pipeline.Value
import Idealize.ShloMosaic.Lib.ValueIdx

noncomputable section

namespace Cert.KernelIdeal.BodyValue

open Cert.KernelIdeal Cert.KernelIdeal.Gen Idealize.ShloMosaic Idealize.ShloMosaic.ValueIdx Cert.NodeUpdate

theorem zero_offsets2 : (![0, 0] : Fin 2 → Nat) = fun _ => 0 := funext fun a => by fin_cases a <;> rfl
theorem zero_offsets1 : (![0] : Fin 1 → Nat) = fun _ => 0 := funext fun a => by fin_cases a <;> rfl

/-- A product of a block of rows with one half of a weight matrix, both changed to bf16 (the identity at the ideal
    values), into the zero accumulator: entry (p, q) is the sum over the 128 contracted entries. -/
theorem product_at (a : FVec Ideal S4096x128 .f32) (w : FVec Ideal S128x128 .f32) (p : Fin 4096) (q : Fin 128) :
    matmul dot_S4096x128_S128x128_S4096x128_1_0_0_1_n_n none
        (truncf .bf16 (shapeCast S4096x128 a shapeCasts_S4096x128_S4096x128) bitsLt_bf16_f32)
        (truncf .bf16 (shapeCast S128x128 w shapeCasts_S128x128_S128x128) bitsLt_bf16_f32)
        (constant S4096x128 .f32 0x00000000#32) (ix2 p q)
      = ∑ l : Fin 128, a (ix2 p l) * w (ix2 l q) := by
  refine (DenseLayer.matmul_rows_apply dot_S4096x128_S128x128_S4096x128_1_0_0_1_n_n_wf none _ _ p q).trans ?_
  refine Finset.sum_congr rfl fun l _ => ?_
  rw [truncf_apply, truncf_apply, shapeCast_self, shapeCast_self]

/-- The incoming head of the body at (p, q). -/
theorem head_in_at (x sf : FVec Ideal S4096x128 .f32) (wt wb : FVec Ideal S128x128 .f32) (b : FVec Ideal S128 .f32)
    (p : Fin 4096) (q : Fin 128) :
    k0_pay4 (F := Ideal) x sf wt wb b (ix2 p q) = headHalves x sf wt wb b p q := by
  unfold k0_pay4 k0_pay2 k0_pay3 headHalves
  refine congrArg₂ (· + ·) (congrArg₂ (· + ·) ?_ ?_) ?_
  · exact product_at x wt p q
  · exact product_at sf wb p q
  · exact DenseLayer.bias_cast_apply b _ _ p q

/-- The outgoing head of the body, already weighed by `outw`, at (p, q). -/
theorem head_out_at (x sf : FVec Ideal S4096x128 .f32) (wt wb : FVec Ideal S128x128 .f32) (b : FVec Ideal S128 .f32)
    (outw : FVec Ideal S4096x1 .f32) (p : Fin 4096) (q : Fin 128) :
    k0_pay5 (F := Ideal) x sf wt wb b outw (ix2 p q) = outw (ix2 p (0 : Fin 1)) * headHalves x sf wt wb b p q := by
  unfold k0_pay5 k0_pay2 k0_pay3 headHalves
  refine congrArg₂ (· * ·) ?_ (congrArg₂ (· + ·) (congrArg₂ (· + ·) ?_ ?_) ?_)
  · refine (RowOps.broadcastTo_a1_ab_apply _ _ p q).trans ?_
    rw [shapeCast_self]
  · exact product_at x wt p q
  · exact product_at sf wb p q
  · exact DenseLayer.bias_cast_apply b _ _ p q

/-- The stored value at (p, q): the weighed outgoing head plus `inw` times the incoming head. -/
theorem combine_at (hin hout : FVec Ideal S4096x128 .f32) (inw : FVec Ideal S4096x1 .f32) (p : Fin 4096) (q : Fin 128) :
    k0_pay1 (F := Ideal) hin hout inw (ix2 p q) = hout (ix2 p q) + inw (ix2 p (0 : Fin 1)) * hin (ix2 p q) := by
  unfold k0_pay1
  refine congrArg₂ (· + ·) rfl (congrArg₂ (· * ·) ?_ rfl)
  refine (RowOps.broadcastTo_a1_ab_apply _ _ p q).trans ?_
  rw [shapeCast_self]

/-- THE OUTPUT BLOCK of a grid step at (p, q) is the update over the halves, of the step's input blocks. -/
theorem out_at (x0 x1 : Vec Ideal S4096x128 .f32) (x2 x3 : Vec Ideal S4096x1 .f32) (x4 x5 : Vec Ideal S128x128 .f32)
    (x6 : Vec Ideal S128 .f32) (x7 x8 : Vec Ideal S128x128 .f32) (x9 : Vec Ideal S128 .f32) (p : Fin 4096) (q : Fin 128) :
    out0_10 (F := Ideal) x0 x1 x2 x3 x4 x5 x6 x7 x8 x9 (ix2 p q) = updateHalves x0 x1 x2 x3 x4 x5 x6 x7 x8 x9 p q := by
  unfold out0_10
  rw [View.canon_unit_zero zero_offsets2]
  simp only [View.ld_unit_zero (S := S4096x128) zero_offsets2, View.ld_unit_zero (S := S128x128) zero_offsets2,
    View.ld_unit_zero (S := S4096x1) zero_offsets2, View.ld_unit_zero (S := S128) zero_offsets1]
  rw [combine_at, head_in_at, head_out_at]
  rfl

end Cert.KernelIdeal.BodyValue

end
-- ==== Proof.ArrayValue.lean ====
/-
  From the grid steps' blocks to the kernel's whole output array, at the ideal values.

  The 25 grid steps tile the 102400 padded node rows, 4096 rows a step: step t reads rows t·4096 … t·4096 + 4095 of the
  padded feature, aggregate and weight arrays, reads the weight halves and biases whole, and writes back the same rows of
  the output. Entry (p, q) of what step t writes is the update at padded row t·4096 + p, so every step writes a block of
  ONE function of the padded arrays — `padded` below —, and the blocks cover the output array: row R lies in step R / 4096.
-/
import proofs.«102750_j79525614453056_1_alg».proof.Proof.BodyValue
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.NodeUpdate
open Idealize.ShloMosaic.Pipeline (Dat)

/-- The update over a block of 4096 rows that are rows of longer arrays — row `p` of the block being row `R` of the
    arrays — is the update over the arrays at row `R`. -/
theorem updateHalves_restrict {n : ℕ} (X SF : (⟨2, ![n, 128]⟩ : Shape).Idx → EReal) (IW OW : (⟨2, ![n, 1]⟩ : Shape).Idx → EReal)
    (x0 x1 : (⟨2, ![4096, 128]⟩ : Shape).Idx → EReal) (x2 x3 : (⟨2, ![4096, 1]⟩ : Shape).Idx → EReal)
    (Wit Wib : (⟨2, ![128, 128]⟩ : Shape).Idx → EReal) (bi : (⟨1, ![128]⟩ : Shape).Idx → EReal)
    (Wot Wob : (⟨2, ![128, 128]⟩ : Shape).Idx → EReal) (bo : (⟨1, ![128]⟩ : Shape).Idx → EReal)
    (p : Fin 4096) (q q' : Fin 128) (R : Fin n) (hq : q = q')
    (h0 : ∀ l, x0 (ix2 p l) = X (ix2 R l)) (h1 : ∀ l, x1 (ix2 p l) = SF (ix2 R l))
    (h2 : x2 (ix2 p (0 : Fin 1)) = IW (ix2 R (0 : Fin 1))) (h3 : x3 (ix2 p (0 : Fin 1)) = OW (ix2 R (0 : Fin 1))) :
    updateHalves x0 x1 x2 x3 Wit Wib bi Wot Wob bo p q = updateHalves X SF IW OW Wit Wib bi Wot Wob bo R q' := by
  subst hq
  unfold updateHalves headHalves
  simp only [h0, h1, h2, h3]

variable (m : (ℓ : Loc nD τ sig) → Buf (Elt Ideal) ℓ) (ρ : Dev nD → PrngReg)

/-! ## The arrays as the kernel finds them, by their literal types -/

abbrev xP (c : Dev nD) : Vec Ideal S102400x128 .f32 := V m c main_v10
abbrev sfP (c : Dev nD) : Vec Ideal S102400x128 .f32 := V m c main_v11
abbrev inwP (c : Dev nD) : Vec Ideal S102400x1 .f32 := V m c main_v12
abbrev outwP (c : Dev nD) : Vec Ideal S102400x1 .f32 := V m c main_v13
abbrev witA (c : Dev nD) : Vec Ideal S128x128 .f32 := V m c main_v14
abbrev wibA (c : Dev nD) : Vec Ideal S128x128 .f32 := V m c main_v15
abbrev biA (c : Dev nD) : Vec Ideal S128 .f32 := V m c main_arg6
abbrev wotA (c : Dev nD) : Vec Ideal S128x128 .f32 := V m c main_v16
abbrev wobA (c : Dev nD) : Vec Ideal S128x128 .f32 := V m c main_v17
abbrev boA (c : Dev nD) : Vec Ideal S128 .f32 := V m c main_arg8

/-- The kernel's whole output array: the update over the halves, of the padded arrays, at every padded row. -/
def padded (c : Dev nD) : Vec Ideal S102400x128 .f32 := fun i =>
  updateHalves (xP m c) (sfP m c) (inwP m c) (outwP m c) (witA m c) (wibA m c) (biA m c) (wotA m c) (wobA m c) (boA m c) (i 0) (i 1)

/-! ## Where each window's block lies -/

/-- The printed index maps, decided over the 25 grid steps: the row-blocked windows are at block (t, 0), the windows read
    whole at block 0. -/
theorem index_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 1) = 0 :=
  (by decide +kernel : ∀ t : Fin grid0.N, _)

theorem steps : cfg0.N = 25 := N_0

/-- A row-blocked window's block at step t, at (p, l), is its array at row t·4096 + p. -/
theorem xblk (c : Dev nD) (t : Fin cfg0.N) (p : Fin 4096) (l : Fin 128) (R : Fin 102400) (hR : R.val = t.val * 4096 + p.val) :
    iblk m c 0 t (ix2 p l) = xP m c (ix2 R l) := by
  obtain ⟨-, -, e0, e1, -⟩ := index_facts t
  show V m c main_v10 (((cfg0.win 0).blk t).view.emb (ix2 p l)) = V m c main_v10 (ix2 R l)
  refine congrArg (V m c main_v10) (funext fun a => Fin.ext ?_)
  match a with
  | ⟨0, _⟩ => show win0_0.index t (0 : Fin 2) * 4096 + 1 * p.val = R.val; omega
  | ⟨1, _⟩ => show win0_0.index t (1 : Fin 2) * 128 + 1 * l.val = l.val; omega

theorem sfblk (c : Dev nD) (t : Fin cfg0.N) (p : Fin 4096) (l : Fin 128) (R : Fin 102400) (hR : R.val = t.val * 4096 + p.val) :
    iblk m c 1 t (ix2 p l) = sfP m c (ix2 R l) := by
  obtain ⟨-, -, -, -, e0, e1, -⟩ := index_facts t
  show V m c main_v11 (((cfg0.win 1).blk t).view.emb (ix2 p l)) = V m c main_v11 (ix2 R l)
  refine congrArg (V m c main_v11) (funext fun a => Fin.ext ?_)
  match a with
  | ⟨0, _⟩ => show win0_1.index t (0 : Fin 2) * 4096 + 1 * p.val = R.val; omega
  | ⟨1, _⟩ => show win0_1.index t (1 : Fin 2) * 128 + 1 * l.val = l.val; omega

theorem inwblk (c : Dev nD) (t : Fin cfg0.N) (p : Fin 4096) (R : Fin 102400) (hR : R.val = t.val * 4096 + p.val) :
    iblk m c 2 t (ix2 p (0 : Fin 1)) = inwP m c (ix2 R (0 : Fin 1)) := by
  obtain ⟨-, -, -, -, -, -, e0, e1, -⟩ := index_facts t
  show V m c main_v12 (((cfg0.win 2).blk t).view.emb (ix2 p (0 : Fin 1))) = V m c main_v12 (ix2 R (0 : Fin 1))
  refine congrArg (V m c main_v12) (funext fun a => Fin.ext ?_)
  match a with
  | ⟨0, _⟩ => show win0_2.index t (0 : Fin 2) * 4096 + 1 * p.val = R.val; omega
  | ⟨1, _⟩ => show win0_2.index t (1 : Fin 2) * 1 + 1 * 0 = 0; omega

theorem outwblk (c : Dev nD) (t : Fin cfg0.N) (p : Fin 4096) (R : Fin 102400) (hR : R.val = t.val * 4096 + p.val) :
    iblk m c 3 t (ix2 p (0 : Fin 1)) = outwP m c (ix2 R (0 : Fin 1)) := by
  obtain ⟨-, -, -, -, -, -, -, -, e0, e1, -⟩ := index_facts t
  show V m c main_v13 (((cfg0.win 3).blk t).view.emb (ix2 p (0 : Fin 1))) = V m c main_v13 (ix2 R (0 : Fin 1))
  refine congrArg (V m c main_v13) (funext fun a => Fin.ext ?_)
  match a with
  | ⟨0, _⟩ => show win0_3.index t (0 : Fin 2) * 4096 + 1 * p.val = R.val; omega
  | ⟨1, _⟩ => show win0_3.index t (1 : Fin 2) * 1 + 1 * 0 = 0; omega

/-- A window read whole: its block at any step is its array. -/
theorem witblk (c : Dev nD) (t : Fin cfg0.N) : iblk m c 4 t = witA m c := by
  obtain ⟨-, -, -, -, -, -, -, -, -, -, e0, e1, -⟩ := index_facts t
  funext z
  show V m c main_v14 (((cfg0.win 4).blk t).view.emb z) = V m c main_v14 z
  refine congrArg (V m c main_v14) (funext fun a => Fin.ext ?_)
  match a with
  | ⟨0, _⟩ => show win0_4.index t (0 : Fin 2) * 128 + 1 * (z 0).val = (z 0).val; omega
  | ⟨1, _⟩ => show win0_4.index t (1 : Fin 2) * 128 + 1 * (z 1).val = (z 1).val; omega

theorem wibblk (c : Dev nD) (t : Fin cfg0.N) : iblk m c 5 t = wibA m c := by
  obtain ⟨-, -, -, -, -, -, -, -, -, -, -, -, e0, e1, -⟩ := index_facts t
  funext z
  show V m c main_v15 (((cfg0.win 5).blk t).view.emb z) = V m c main_v15 z
  refine congrArg (V m c main_v15) (funext fun a => Fin.ext ?_)
  match a with
  | ⟨0, _⟩ => show win0_5.index t (0 : Fin 2) * 128 + 1 * (z 0).val = (z 0).val; omega
  | ⟨1, _⟩ => show win0_5.index t (1 : Fin 2) * 128 + 1 * (z 1).val = (z 1).val; omega

theorem biblk (c : Dev nD) (t : Fin cfg0.N) : iblk m c 6 t = biA m c := by
  obtain ⟨-, -, -, -, -, -, -, -, -, -, -, -, -, -, e0, -⟩ := index_facts t
  funext z
  show V m c main_arg6 (((cfg0.win 6).blk t).view.emb z) = V m c main_arg6 z
  refine congrArg (V m c main_arg6) (funext fun a => Fin.ext ?_)
  match a with
  | ⟨0, _⟩ => show win0_6.index t (0 : Fin 1) * 128 + 1 * (z 0).val = (z 0).val; omega

theorem wotblk (c : Dev nD) (t : Fin cfg0.N) : iblk m c 7 t = wotA m c := by
  obtain ⟨-, -, -, -, -, -, -, -, -, -, -, -, -, -, -, e0, e1, -⟩ := index_facts t
  funext z
  show V m c main_v16 (((cfg0.win 7).blk t).view.emb z) = V m c main_v16 z
  refine congrArg (V m c main_v16) (funext fun a => Fin.ext ?_)
  match a with
  | ⟨0, _⟩ => show win0_7.index t (0 : Fin 2) * 128 + 1 * (z 0).val = (z 0).val; omega
  | ⟨1, _⟩ => show win0_7.index t (1 : Fin 2) * 128 + 1 * (z 1).val = (z 1).val; omega

theorem wobblk (c : Dev nD) (t : Fin cfg0.N) : iblk m c 8 t = wobA m c := by
  obtain ⟨-, -, -, -, -, -, -, -, -, -, -, -, -, -, -, -, -, e0, e1, -⟩ := index_facts t
  funext z
  show V m c main_v17 (((cfg0.win 8).blk t).view.emb z) = V m c main_v17 z
  refine congrArg (V m c main_v17) (funext fun a => Fin.ext ?_)
  match a with
  | ⟨0, _⟩ => show win0_8.index t (0 : Fin 2) * 128 + 1 * (z 0).val = (z 0).val; omega
  | ⟨1, _⟩ => show win0_8.index t (1 : Fin 2) * 128 + 1 * (z 1).val = (z 1).val; omega

theorem boblk (c : Dev nD) (t : Fin cfg0.N) : iblk m c 9 t = boA m c := by
  obtain ⟨-, -, -, -, -, -, -, -, -, -, -, -, -, -, -, -, -, -, -, e0⟩ := index_facts t
  funext z
  show V m c main_arg8 (((cfg0.win 9).blk t).view.emb z) = V m c main_arg8 z
  refine congrArg (V m c main_arg8) (funext fun a => Fin.ext ?_)
  match a with
  | ⟨0, _⟩ => show win0_9.index t (0 : Fin 1) * 128 + 1 * (z 0).val = (z 0).val; omega

/-! ## What a step writes back, and the array after the run -/

/-- WHAT STEP t WRITES BACK is block t of `padded`. -/
theorem flushed_eq (c : Dev nD) (t : Fin cfg0.N) :
    (dats m 0 c).flushed 10 t = ((cfg0.win 10).blk t).view.read (Elt Ideal) (padded m c) := by
  show (cfg0.win 10).cut (grid0.coords t) ((dats m 0 c).after 10 t) = _
  rw [after0_10, witblk, wibblk, biblk, wotblk, wobblk, boblk]
  obtain ⟨e0, e1, -⟩ := index_facts t
  funext y
  show out0_10 (F := Ideal) (iblk m c 0 t) (iblk m c 1 t) (iblk m c 2 t) (iblk m c 3 t) (witA m c) (wibA m c) (biA m c)
      (wotA m c) (wobA m c) (boA m c) y = padded m c (((cfg0.win 10).blk t).view.emb y)
  refine (congrArg (out0_10 (F := Ideal) (iblk m c 0 t) (iblk m c 1 t) (iblk m c 2 t) (iblk m c 3 t) (witA m c) (wibA m c)
    (biA m c) (wotA m c) (wobA m c) (boA m c)) (eq_ix2 y)).trans ?_
  refine (BodyValue.out_at _ _ _ _ _ _ _ _ _ _ (y 0) (y 1)).trans ?_
  have hR : ((((cfg0.win 10).blk t).view.emb y) 0).val = t.val * 4096 + (y 0).val := by
    show win0_10.index t (0 : Fin 2) * 4096 + 1 * (y 0).val = _
    omega
  have hq : y 1 = (((cfg0.win 10).blk t).view.emb y) 1 := Fin.ext (by
    show (y 1).val = win0_10.index t (1 : Fin 2) * 128 + 1 * (y 1).val
    omega)
  exact updateHalves_restrict (xP m c) (sfP m c) (inwP m c) (outwP m c) _ _ _ _ _ _ _ _ _ _ (y 0) (y 1) _ _ hq
    (fun l => xblk m c t (y 0) l _ hR) (fun l => sfblk m c t (y 0) l _ hR) (inwblk m c t (y 0) _ hR) (outwblk m c t (y 0) _ hR)

/-- An index of the output array is in step t's block iff each coordinate is in the block's range on its axis. -/
theorem mem_blk (t : Fin cfg0.N) (i : S102400x128.Idx) :
    i ∈ ((cfg0.win 10).blk t).view.set ↔ ∀ a : Fin 2, win0_10.index t a * S4096x128.size a ≤ (i a).val ∧ (i a).val < win0_10.index t a * S4096x128.size a + S4096x128.size a := by
  show i ∈ ((View.whole main_v18).slice (win0_10.rect t)).set ↔ _
  rw [View.set_slice_whole, Rect.mem_set_unit]
  exact Iff.rfl

/-- Every index of the output array is in some step's block: row R in step R / 4096. -/
theorem covered (i : S102400x128.Idx) :
    ∃ t : Fin cfg0.N, (cfg0.win 10).flush t = true ∧ i ∈ ((cfg0.win 10).blk t).view.set := by
  have hi0 : (i 0).val < 102400 := (i 0).isLt
  have hi1 : (i 1).val < 128 := (i 1).isLt
  have hN : cfg0.N = 25 := steps
  let t : Fin cfg0.N := ⟨(i 0).val / 4096, by rw [hN]; omega⟩
  obtain ⟨e0, e1, -⟩ := index_facts t
  have ht : t.val = (i 0).val / 4096 := rfl
  refine ⟨t, flush0_10 t, ?_⟩
  rw [mem_blk]
  intro a
  match a with
  | ⟨0, _⟩ => show win0_10.index t (0 : Fin 2) * 4096 ≤ (i 0).val ∧ (i 0).val < win0_10.index t (0 : Fin 2) * 4096 + 4096; omega
  | ⟨1, _⟩ => show win0_10.index t (1 : Fin 2) * 128 ≤ (i 1).val ∧ (i 1).val < win0_10.index t (1 : Fin 2) * 128 + 128; omega

/-- THE OUTPUT ARRAY after the run is `padded`. -/
theorem final (c : Dev nD) : (dats m 0 c).arrAt 10 cfg0.N = padded m c :=
  (dats m 0 c).arrAt_eq_of_cover 10 (padded m c) (fun t _ => flushed_eq m c t) covered

end Cert.KernelIdeal.ArrayValue

end
-- ==== Proof.HostReads.lean ====
/-
  The host's layout operations around the kernel, read at an index, and how the update over halves and padded arrays
  becomes the update over whole matrices and unpadded arrays.

  A 100000-row array padded below to 102400 rows is the array at every row below 100000; the upper half of a
  256 × 128 matrix is its rows l, the lower half its rows 128 + l; the first 100000 rows of a 102400-row array are
  that array's rows. With these, the update at a padded row R < 100000 over halves is the update at row R over the
  whole matrices and the unpadded arrays.
-/
import proofs.«102750_j79525614453056_1_alg».proof.Proof.NodeUpdate
import Idealize.ShloMosaic.Lib.Pipeline.Value
import Idealize.ShloMosaic.Lib.KernelVsHost
import Idealize.ShloMosaic.Lib.ValueIdx

noncomputable section

namespace Cert.HostReads

open Idealize.ShloMosaic Idealize.ShloMosaic.ValueIdx Cert.NodeUpdate

/-- The update over halves and padded arrays, at a padded row `R` that is row `r` of the unpadded arrays, the halves being
    the upper and lower halves of whole matrices, is the update over the unpadded arrays and whole matrices at `(r, j)`. -/
theorem updateHalves_eq_update {n n' : ℕ} (Xp SFp : (⟨2, ![n', 128]⟩ : Shape).Idx → EReal) (IWp OWp : (⟨2, ![n', 1]⟩ : Shape).Idx → EReal)
    (X SF : (⟨2, ![n, 128]⟩ : Shape).Idx → EReal) (IW OW : (⟨2, ![n, 1]⟩ : Shape).Idx → EReal)
    (Wit Wib Wot Wob : (⟨2, ![128, 128]⟩ : Shape).Idx → EReal) (Wi Wo : (⟨2, ![256, 128]⟩ : Shape).Idx → EReal)
    (bi bo : (⟨1, ![128]⟩ : Shape).Idx → EReal) (R : Fin n') (r : Fin n) (j : Fin 128)
    (hX : ∀ l, Xp (ix2 R l) = X (ix2 r l)) (hSF : ∀ l, SFp (ix2 R l) = SF (ix2 r l))
    (hIW : IWp (ix2 R (0 : Fin 1)) = IW (ix2 r (0 : Fin 1))) (hOW : OWp (ix2 R (0 : Fin 1)) = OW (ix2 r (0 : Fin 1)))
    (hit : ∀ l j, Wit (ix2 l j) = Wi (ix2 (upper l) j)) (hib : ∀ l j, Wib (ix2 l j) = Wi (ix2 (lower l) j))
    (hot : ∀ l j, Wot (ix2 l j) = Wo (ix2 (upper l) j)) (hob : ∀ l j, Wob (ix2 l j) = Wo (ix2 (lower l) j)) :
    updateHalves Xp SFp IWp OWp Wit Wib bi Wot Wob bo R j = update X SF IW OW Wi bi Wo bo (ix2 r j) := by
  show _ = OW (ix2 r (0 : Fin 1)) * head X SF Wo bo r j + IW (ix2 r (0 : Fin 1)) * head X SF Wi bi r j
  unfold updateHalves headHalves head
  simp only [hX, hSF, hIW, hOW, hit, hib, hot, hob]

/-! ## Reads of the host's layout operations -/

/-- A 100000-row array padded below to 102400 rows, at a row below 100000, is the array there. -/
theorem pad_rows_apply {w : ℕ} {u : Shape} (A : (⟨2, ![100000, w]⟩ : Shape).Idx → EReal) (v : u.Idx → EReal)
    (h : (⟨2, ![100000, w]⟩ : Shape).Pads ![0, 0] ![2400, 0] ![0, 0] ⟨2, ![102400, w]⟩) (hu : 0 < u.numel)
    (R : Fin 102400) (r : Fin 100000) (hR : R.val = r.val) (l : Fin w) :
    pad ⟨2, ![102400, w]⟩ ![0, 0] ![2400, 0] ![0, 0] A v h hu (ix2 R l) = A (ix2 r l) := by
  refine pad_apply_of_inside ![0, 0] ![2400, 0] ![0, 0] A v h hu (ix2 R l) (ix2 r l) fun a => ?_
  match a with
  | ⟨0, _⟩ => show R.val = 0 + r.val * (0 + 1); omega
  | ⟨1, _⟩ => show l.val = 0 + l.val * (0 + 1); omega

/-- The upper half of a 256 × 128 matrix, at (l, j), is the matrix at (l, j). -/
theorem upper_half_apply (W : (⟨2, ![256, 128]⟩ : Shape).Idx → EReal)
    (h : (⟨2, ![256, 128]⟩ : Shape).Slices ![0, 0] ⟨2, ![128, 128]⟩) (l j : Fin 128) :
    extractStridedSlice ⟨2, ![128, 128]⟩ ![0, 0] W h (ix2 l j) = W (ix2 (upper l) j) := by
  refine extractStridedSlice_apply ![0, 0] W h (ix2 l j) (ix2 (upper l) j) fun a => ?_
  match a with
  | ⟨0, _⟩ => show l.val = 0 + l.val; omega
  | ⟨1, _⟩ => show j.val = 0 + j.val; omega

/-- The lower half of a 256 × 128 matrix, at (l, j), is the matrix at (128 + l, j). -/
theorem lower_half_apply (W : (⟨2, ![256, 128]⟩ : Shape).Idx → EReal)
    (h : (⟨2, ![256, 128]⟩ : Shape).Slices ![128, 0] ⟨2, ![128, 128]⟩) (l j : Fin 128) :
    extractStridedSlice ⟨2, ![128, 128]⟩ ![128, 0] W h (ix2 l j) = W (ix2 (lower l) j) := by
  refine extractStridedSlice_apply ![128, 0] W h (ix2 l j) (ix2 (lower l) j) fun a => ?_
  match a with
  | ⟨0, _⟩ => show 128 + l.val = 128 + l.val; rfl
  | ⟨1, _⟩ => show j.val = 0 + j.val; omega

/-- The first 100000 rows of a 102400-row array, at (r, j), are the array at (r, j). -/
theorem kept_rows_apply (A : (⟨2, ![102400, 128]⟩ : Shape).Idx → EReal)
    (h : (⟨2, ![102400, 128]⟩ : Shape).Slices ![0, 0] ⟨2, ![100000, 128]⟩) (r : Fin 100000) (j : Fin 128)
    (R : Fin 102400) (hR : R.val = r.val) :
    extractStridedSlice ⟨2, ![100000, 128]⟩ ![0, 0] A h (ix2 r j) = A (ix2 R j) := by
  refine extractStridedSlice_apply ![0, 0] A h (ix2 r j) (ix2 R j) fun a => ?_
  match a with
  | ⟨0, _⟩ => show R.val = 0 + r.val; omega
  | ⟨1, _⟩ => show j.val = 0 + j.val; omega

end Cert.HostReads

end
-- ==== Proof.HostAggregate.lean ====
/-
  The aggregated neighbour rows in the kernel program: the term the host computes them by, and their padded copy.

  The host gathers the feature rows by source node (a negative node number counted from the end), sums them into the
  rows their destination nodes name, starting from zero, and pads the 100000 rows so obtained to 102400 for the kernel.
  The host lines are read in two stretches: the lines up to the aggregated rows, and the lines from their padding call
  on. Whatever the first stretch leaves, the second leaves the aggregated rows' buffer alone and makes the padded array
  their pad: at a row below 100000 the padded array is the aggregated rows there. Only then is the first stretch read:
  the aggregated rows are the aggregate of the arguments, kept as one term and never opened.
-/
import proofs.«102750_j79525614453056_1_alg».proof.Proof.ArrayValue
import proofs.«102750_j79525614453056_1_alg».proof.Proof.HostReads
import Idealize.ShloMosaic.Lib.StableHlo.Run

noncomputable section

namespace Cert.KernelIdeal.HostAggregate

open Cert.KernelIdeal Cert.KernelIdeal.Gen Cert.KernelIdeal.ArrayValue Idealize.ShloMosaic Idealize.ShloMosaic.TcCoe Idealize.SL.Sem
open Idealize.ShloMosaic.StableHlo Idealize.ShloMosaic.ValueIdx Cert.HostReads

/-- Host lines run one stretch after the other. -/
theorem after_append {Val : EltTy → Type} (A B : List (HloOp τ sig Val)) (M : Valuation τ sig Val) :
    after (A ++ B) M = after B (after A M) := by
  induction A generalizing M with
  | nil => rfl
  | cons op A ih => simp only [List.cons_append, after_cons, ih]

/-! ## The lines from the padding call of the aggregated rows on, after ANY contents before them -/

/-- They leave the aggregated rows' buffer as it was. -/
theorem later_lines_keep (W : Valuation τ sig (Elt Ideal)) :
    after (List.flatten [hostOps0_3, hostOps0_4, hostOps0_5, hostOps0_6, hostOps0_7, hostOps0_8]) W (Proc.devRef .tc main_v9)
      = W (Proc.devRef .tc main_v9) := by
  simp only [hostOps0_3, hostOps0_4, hostOps0_5, hostOps0_6, hostOps0_7, hostOps0_8,
    List.flatten_cons, List.flatten_nil, List.append_nil, List.cons_append, List.nil_append]
  after_results

/-- They leave in the padded buffer, at a row below 100000, the aggregated rows' buffer at that row. -/
theorem later_lines_pad (W : Valuation τ sig (Elt Ideal)) (R : Fin 102400) (r : Fin 100000) (hR : R.val = r.val) (l : Fin 128) :
    (after (List.flatten [hostOps0_3, hostOps0_4, hostOps0_5, hostOps0_6, hostOps0_7, hostOps0_8]) W (Proc.devRef .tc main_v11)
        : Vec Ideal S102400x128 .f32) (ix2 R l)
      = (W (Proc.devRef .tc main_v9) : Vec Ideal S100000x128 .f32) (ix2 r l) := by
  simp only [hostOps0_3, hostOps0_4, hostOps0_5, hostOps0_6, hostOps0_7, hostOps0_8,
    List.flatten_cons, List.flatten_nil, List.append_nil, List.cons_append, List.nil_append]
  after_results
  show pad S102400x128 ![0, 0] ![2400, 0] ![0, 0] (W (Proc.devRef .tc main_v9) : Vec Ideal S100000x128 .f32) _
      pads_S100000x128_S102400x128_024000_000 h_S_ (ix2 R l) = _
  exact pad_rows_apply _ _ _ _ R r hR l

variable (m : (ℓ : Loc nD τ sig) → Buf (Elt Ideal) ℓ)

/-- The contents when the kernel starts are the later lines' after the earlier lines'. -/
theorem V0_split (c : Dev nD) : V0 m c
    = after (List.flatten [hostOps0_3, hostOps0_4, hostOps0_5, hostOps0_6, hostOps0_7, hostOps0_8])
        (after (List.flatten [hostOps0, hostOps0_1, hostOps0_2]) (fun b => m (c, b))) := by
  show after (List.flatten [hostOps0, hostOps0_1, hostOps0_2, hostOps0_3, hostOps0_4, hostOps0_5, hostOps0_6, hostOps0_7, hostOps0_8])
      (fun b => m (c, b)) = _
  rw [← after_append]
  simp only [List.flatten_cons, List.flatten_nil, List.append_nil, List.append_assoc]

/-! ## The arguments, by their literal types -/

abbrev xA (c : Dev nD) : Vec Ideal S100000x128 .f32 := m ((c : Thread nD τ).loc main_arg0)
abbrev srcA (c : Dev nD) : Vec Ideal S1600000 .i32 := m ((c : Thread nD τ).loc main_arg1)
abbrev dstA (c : Dev nD) : Vec Ideal S1600000 .i32 := m ((c : Thread nD τ).loc main_arg2)
abbrev inwA (c : Dev nD) : Vec Ideal S100000x1 .f32 := m ((c : Thread nD τ).loc main_arg3)
abbrev outwA (c : Dev nD) : Vec Ideal S100000x1 .f32 := m ((c : Thread nD τ).loc main_arg4)
abbrev winA (c : Dev nD) : Vec Ideal S256x128 .f32 := m ((c : Thread nD τ).loc main_arg5)
abbrev binA (c : Dev nD) : Vec Ideal S128 .f32 := m ((c : Thread nD τ).loc main_arg6)
abbrev woutA (c : Dev nD) : Vec Ideal S256x128 .f32 := m ((c : Thread nD τ).loc main_arg7)
abbrev boutA (c : Dev nD) : Vec Ideal S128 .f32 := m ((c : Thread nD τ).loc main_arg8)

/-- The aggregated neighbour rows, as the host computes them: the feature rows gathered by source node (a negative node
    number counted from the end) and summed into the rows their destination nodes name, from zero. -/
def aggregated (x : Vec Ideal S100000x128 .f32) (src dst : Vec Ideal S1600000 .i32) : Vec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The padding value of the four pads: the integer zero converted. -/
abbrev padValue : Vec Ideal S_ .f32 := sitofp (F := Ideal) .f32 (constantI S_ 32 0#32)

/-- The aggregated rows as the host lines leave them: the contents of their buffer when the kernel starts. -/
abbrev aggV (c : Dev nD) : Vec Ideal S100000x128 .f32 := V m c main_v9

/-- They are the aggregate of the arguments. -/
theorem aggV_eq (c : Dev nD) : aggV m c = aggregated (xA m c) (srcA m c) (dstA m c) := by
  show V m c main_v9 = _
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The padded array of aggregated rows the kernel finds, at a row below 100000, is the aggregated rows there. -/
theorem sfP_rows (c : Dev nD) (R : Fin 102400) (r : Fin 100000) (hR : R.val = r.val) (l : Fin 128) :
    sfP m c (ix2 R l) = aggV m c (ix2 r l) := by
  show (V0 m c (Proc.devRef .tc main_v11) : Vec Ideal S102400x128 .f32) (ix2 R l)
    = (V0 m c (Proc.devRef .tc main_v9) : Vec Ideal S100000x128 .f32) (ix2 r l)
  rw [V0_split, later_lines_keep]
  exact later_lines_pad _ R r hR l

end Cert.KernelIdeal.HostAggregate

end
-- ==== Proof.HostArrays.lean ====
/-
  The other arrays the kernel finds, as the host lines' terms of the arguments: the padded feature and weight-column
  arrays are pads of the arguments, the four 128 × 128 matrices are the upper and lower halves of the two weight
  matrices, and the two bias vectors are the arguments themselves.
-/
import proofs.«102750_j79525614453056_1_alg».proof.Proof.HostAggregate

noncomputable section

namespace Cert.KernelIdeal.HostArrays

open Cert.KernelIdeal Cert.KernelIdeal.Gen Cert.KernelIdeal.ArrayValue Cert.KernelIdeal.HostAggregate
open Idealize.ShloMosaic Idealize.ShloMosaic.TcCoe Idealize.SL.Sem Idealize.ShloMosaic.StableHlo

variable (m : (ℓ : Loc nD τ sig) → Buf (Elt Ideal) ℓ)

theorem xP_eq (c : Dev nD) : xP m c
    = pad S102400x128 ![0, 0] ![2400, 0] ![0, 0] (xA m c) padValue pads_S100000x128_S102400x128_024000_000 h_S_ := by
  show V m c main_v10 = _
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem inwP_eq (c : Dev nD) : inwP m c
    = pad S102400x1 ![0, 0] ![2400, 0] ![0, 0] (inwA m c) padValue pads_S100000x1_S102400x1_024000_000 h_S_ := by
  show V m c main_v12 = _
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem outwP_eq (c : Dev nD) : outwP m c
    = pad S102400x1 ![0, 0] ![2400, 0] ![0, 0] (outwA m c) padValue pads_S100000x1_S102400x1_024000_000 h_S_ := by
  show V m c main_v13 = _
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem witA_eq (c : Dev nD) : witA m c = extractStridedSlice S128x128 ![0, 0] (winA m c) slices_S256x128_S128x128_0_0 := by
  show V m c main_v14 = _
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results

theorem wibA_eq (c : Dev nD) : wibA m c = extractStridedSlice S128x128 ![128, 0] (winA m c) slices_S256x128_S128x128_128_0 := by
  show V m c main_v15 = _
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results

theorem wotA_eq (c : Dev nD) : wotA m c = extractStridedSlice S128x128 ![0, 0] (woutA m c) slices_S256x128_S128x128_0_0 := by
  show V m c main_v16 = _
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results

theorem wobA_eq (c : Dev nD) : wobA m c = extractStridedSlice S128x128 ![128, 0] (woutA m c) slices_S256x128_S128x128_128_0 := by
  show V m c main_v17 = _
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results

theorem biA_eq (c : Dev nD) : biA m c = binA m c := V_main_arg6 m c
theorem boA_eq (c : Dev nD) : boA m c = boutA m c := V_main_arg8 m c

end Cert.KernelIdeal.HostArrays

end
-- ==== Proof.HostSide.lean ====
/-
  The kernel program's result as the node update.

  After the kernel the host keeps the first 100000 rows of its output array. The output array is the padded update
  (the module on the blocks); a kept row R is a row below 100000, where every padded array is its argument and the
  halves are the weight matrices' rows l and 128 + l (the modules on the host lines): so the result is the update of the
  arguments and the aggregated rows, entry by entry.
-/
import proofs.«102750_j79525614453056_1_alg».proof.Proof.HostArrays
import proofs.«102750_j79525614453056_1_alg».proof.Proof.HostReads

noncomputable section

namespace Cert.KernelIdeal.HostSide

open Cert.KernelIdeal Cert.KernelIdeal.Gen Cert.KernelIdeal.ArrayValue Cert.KernelIdeal.HostAggregate Cert.KernelIdeal.HostArrays
open Idealize.ShloMosaic Idealize.ShloMosaic.TcCoe Idealize.SL.Sem Idealize.ShloMosaic.StableHlo
open Idealize.ShloMosaic.ValueIdx Cert.NodeUpdate Cert.HostReads

variable (m : (ℓ : Loc nD τ sig) → Buf (Elt Ideal) ℓ)

/-- The result buffer after the host line that follows the kernel: the first 100000 rows of the kernel's output array. -/
theorem tail_eq (c : Dev nD) :
    Pipeline.afterTail₀ cfgs (dats m) 0 (V0 m) [hostOps1] c main_v19
      = extractStridedSlice S100000x128 ![0, 0] (padded m c) slices_S102400x128_S100000x128_0_0 := by
  unfold Pipeline.afterTail₀
  show StableHlo.after hostOps1 _ (Proc.devRef .tc main_v19) = _
  after_results
  exact congrArg (fun A => extractStridedSlice S100000x128 ![0, 0] A slices_S102400x128_S100000x128_0_0)
    ((Pipeline.withArrays_arr spec0 launch0.win.arr_inj c (V0 m c) (fun w => (dats m 0 c).arrAt w cfg0.N) 10).trans (final m c))

/-- The result, over the aggregated rows as their buffer holds them. -/
theorem result_eq_aggV (c : Dev nD) :
    Pipeline.afterTail₀ cfgs (dats m) 0 (V0 m) [hostOps1] c main_v19
      = update (xA m c) (aggV m c) (inwA m c) (outwA m c) (winA m c) (binA m c) (woutA m c) (boutA m c) := by
  rw [tail_eq]
  funext i
  obtain ⟨r, j, rfl⟩ : ∃ (r : Fin 100000) (j : Fin 128), i = ix2 r j := ⟨i 0, i 1, eq_ix2 i⟩
  have hr : r.val < 100000 := r.isLt
  let R : Fin 102400 := ⟨r.val, by omega⟩
  have hR : R.val = r.val := rfl
  refine (kept_rows_apply (padded m c) _ r j R hR).trans ?_
  show updateHalves (xP m c) (sfP m c) (inwP m c) (outwP m c) (witA m c) (wibA m c) (biA m c) (wotA m c) (wobA m c) (boA m c) R j = _
  rw [biA_eq, boA_eq]
  refine updateHalves_eq_update _ _ _ _ _ _ _ _ _ _ _ _ _ _ _ _ R r j ?_ ?_ ?_ ?_ ?_ ?_ ?_ ?_
  · intro l; rw [xP_eq]; exact pad_rows_apply _ _ _ _ R r hR l
  · intro l; exact sfP_rows m c R r hR l
  · rw [inwP_eq]; exact pad_rows_apply _ _ _ _ R r hR (0 : Fin 1)
  · rw [outwP_eq]; exact pad_rows_apply _ _ _ _ R r hR (0 : Fin 1)
  · intro l j; rw [witA_eq]; exact upper_half_apply _ _ l j
  · intro l j; rw [wibA_eq]; exact lower_half_apply _ _ l j
  · intro l j; rw [wotA_eq]; exact upper_half_apply _ _ l j
  · intro l j; rw [wobA_eq]; exact lower_half_apply _ _ l j

/-- THE KERNEL PROGRAM'S RESULT is the update of the arguments and their aggregate. -/
theorem result_eq (c : Dev nD) :
    Pipeline.afterTail₀ cfgs (dats m) 0 (V0 m) [hostOps1] c main_v19
      = update (xA m c) (aggregated (xA m c) (srcA m c) (dstA m c)) (inwA m c) (outwA m c) (winA m c) (binA m c) (woutA m c) (boutA m c) :=
  (result_eq_aggV m c).trans
    (congrArg (fun S => update (xA m c) S (inwA m c) (outwA m c) (winA m c) (binA m c) (woutA m c) (boutA m c)) (aggV_eq m c))

end Cert.KernelIdeal.HostSide

end
-- ==== Proof.KernelRun.lean ====
/-
  The kernel program's run, read: it terminates with its result the node update of its arguments and of the aggregated
  neighbour rows, and with its arguments unchanged.

  The run itself is the generated frame's: every weakly fair execution ends with each array of the kernel's pipeline at
  what the grid steps wrote back and every other buffer as the host lines leave it. The result buffer is one of the
  others (the host line after the kernel writes it), and its contents were read in the module before this one; an
  argument the kernel stages is read off its window, which never writes back, the rest off the host lines, none of which
  writes an argument.
-/
import proofs.«102750_j79525614453056_1_alg».proof.Proof.HostSide

noncomputable section

namespace Cert.KernelIdeal.KernelRun

open Cert.KernelIdeal Cert.KernelIdeal.Gen Cert.KernelIdeal.HostAggregate Cert.KernelIdeal.HostSide Idealize.ShloMosaic Idealize.ShloMosaic.TcCoe Idealize.SL.Sem
open Cert.NodeUpdate

variable (m : (ℓ : Loc nD τ sig) → Buf (Elt Ideal) ℓ) (ρ : Dev nD → PrngReg)

/-- The result of the kernel program on core `c`: the update of the arguments and the aggregated rows. -/
abbrev result (c : Dev nD) : Vec Ideal S100000x128 .f32 :=
  update (xA m c) (aggregated (xA m c) (srcA m c) (dstA m c)) (inwA m c) (outwA m c) (winA m c) (binA m c) (woutA m c) (boutA m c)

theorem run : θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 9).trans (((dats m 0 c).arrAt_in 9 rfl _).trans ((A_eq m c 9).trans (V_main_arg8 m c)))⟩)
    (run_main m ρ)

end Cert.KernelIdeal.KernelRun

end
-- ==== Proof.RefSide.lean ====
/-
  The reference's result is the node update, entry by entry, at the ideal values.

  The reference joins each node's feature row with its aggregated neighbour row into one row of 256 entries, multiplies
  by each whole 256 × 128 weight matrix, adds the bias and weighs the two heads. At entry (r, j) the product is the sum
  over the 256 joined entries; the first 128 are X(r, ·) against the matrix's upper half, the last 128 SF(r, ·) against
  its lower half. The aggregated rows SF (a gather of feature rows by source node, summed into destination rows) are
  kept as the one term the reference computes them by; nothing here looks inside it.
-/
import proofs.«102750_j79525614453056_1_alg».proof.Proof.Gen.ReferenceIdeal.Read
import proofs.«102750_j79525614453056_1_alg».proof.Proof.NodeUpdate
import Idealize.ShloMosaic.Lib.Pipeline.Value
import Idealize.ShloMosaic.Lib.ValueIdx

noncomputable section

namespace Cert.ReferenceIdeal.RefSide

open Cert.ReferenceIdeal Cert.ReferenceIdeal.Gen Cert.ReferenceIdeal.Read Idealize.ShloMosaic Idealize.ShloMosaic.ValueIdx Cert.NodeUpdate

/-- Entry `l < 128` of a joined row is the feature row's entry `l`. -/
theorem joined_upper (X SF : FVec Ideal S100000x128 .f32) (r : Fin 100000) (l : Fin 128) :
    concatenate S100000x256 1 [⟨S100000x128, X⟩, ⟨S100000x128, SF⟩] concatenates_S100000x128_S100000x128_S100000x256_d1
        (ix2 r (upper l)) = X (ix2 r l) := by
  refine concatenate_pair_apply_left (1 : Fin 2) X SF _ (ix2 r (upper l)) rfl (ix2 r l) fun b => ?_
  match b with
  | ⟨0, _⟩ => rfl
  | ⟨1, _⟩ => rfl

/-- Entry `128 + l` of a joined row is the aggregated row's entry `l`. -/
theorem joined_lower (X SF : FVec Ideal S100000x128 .f32) (r : Fin 100000) (l : Fin 128) :
    concatenate S100000x256 1 [⟨S100000x128, X⟩, ⟨S100000x128, SF⟩] concatenates_S100000x128_S100000x128_S100000x256_d1
        (ix2 r (lower l)) = SF (ix2 r l) := by
  refine concatenate_pair_apply_right (1 : Fin 2) X SF _ (ix2 r (lower l)) rfl rfl (ix2 r l) (fun b hb => ?_) ?_
  · match b with
    | ⟨0, _⟩ => rfl
    | ⟨1, _⟩ => exact absurd rfl hb
  · show l.val + 128 = 128 + l.val
    omega

/-- THE REFERENCE'S RESULT is the update of the arguments and the aggregated rows. -/
theorem result_eq (x0 : FVec Ideal S100000x128 .f32) (x1 x2 : IVec S1600000 32) (x3 x4 : FVec Ideal S100000x1 .f32)
    (x5 : FVec Ideal S256x128 .f32) (x6 : FVec Ideal S128 .f32) (x7 : FVec Ideal S256x128 .f32) (x8 : FVec Ideal S128 .f32) :
    val_main_v23 (F := Ideal) x0 x1 x2 x3 x4 x5 x6 x7 x8
      = update x0 (val_main_v9 (F := Ideal) x0 x1 x2) x3 x4 x5 x6 x7 x8 := by
  funext i
  obtain ⟨r, j, rfl⟩ : ∃ (r : Fin 100000) (j : Fin 128), i = ix2 r j := ⟨i 0, i 1, eq_ix2 i⟩
  rw [val_main_v23_apply, val_main_v20_apply, val_main_v22_apply, val_main_v19_apply, val_main_v21_apply,
    val_main_v18_apply, val_main_v14_apply, val_main_v15_apply, val_main_v11_apply, val_main_v17_apply,
    val_main_v13_apply, val_main_v16_apply, val_main_v12_apply]
  have e19 : idx_main_v19 (ix2 r j) = ix2 r (0 : Fin 1) := funext fun a => by
    match a with
    | ⟨0, _⟩ => rfl
    | ⟨1, _⟩ => rfl
  have e21 : idx_main_v21 (ix2 r j) = ix2 r (0 : Fin 1) := funext fun a => by
    match a with
    | ⟨0, _⟩ => rfl
    | ⟨1, _⟩ => rfl
  have e16 : idx_main_v16 (idx_main_v17 (ix2 r j)) = ix1 j := funext fun a => by
    match a with
    | ⟨0, _⟩ => rfl
  have e12 : idx_main_v12 (idx_main_v13 (ix2 r j)) = ix1 j := funext fun a => by
    match a with
    | ⟨0, _⟩ => rfl
  have dO := joined_contraction (val_main_v10 (F := Ideal) x0 x1 x2) x0 (val_main_v9 (F := Ideal) x0 x1 x2)
    (fun r l => joined_upper x0 _ r l) (fun r l => joined_lower x0 _ r l) x7 r j
    (lidx_main_v15 (ix2 r j)) (ridx_main_v15 (ix2 r j))
    (fun k => funext fun a => by match a with | ⟨0, _⟩ => rfl | ⟨1, _⟩ => rfl)
    (fun k => funext fun a => by match a with | ⟨0, _⟩ => rfl | ⟨1, _⟩ => rfl)
  have dI := joined_contraction (val_main_v10 (F := Ideal) x0 x1 x2) x0 (val_main_v9 (F := Ideal) x0 x1 x2)
    (fun r l => joined_upper x0 _ r l) (fun r l => joined_lower x0 _ r l) x5 r j
    (lidx_main_v11 (ix2 r j)) (ridx_main_v11 (ix2 r j))
    (fun k => funext fun a => by match a with | ⟨0, _⟩ => rfl | ⟨1, _⟩ => rfl)
    (fun k => funext fun a => by match a with | ⟨0, _⟩ => rfl | ⟨1, _⟩ => rfl)
  rw [e19, e21, e16, e12, dO, dI]
  rfl

end Cert.ReferenceIdeal.RefSide

end
-- ==== Proof.lean ====
/-
  A message-passing layer's node update, as one tiled kernel, against its plain formulation: equal over the extended reals.

  Both programs first sum, for every node, the feature rows of its in-neighbours (a gather by source node, a
  scatter-add by destination node): the same host lines, kept as one term. The reference then joins each node's own row
  with its aggregated row into 256 entries, multiplies by the two 256 × 128 weight matrices, adds the biases and weighs
  the two heads by the node's `out_w` and `in_w`. The kernel never forms the joined row: it pads the 100000 rows to
  25 blocks of 4096, cuts each weight matrix into its upper and lower 128 × 128 halves, and per block computes
  (x·W_top + sf·W_bot) + b for both heads — the products through bf16, which at the ideal values is no change — and the
  weighted sum; the padding rows are dropped at the end.

  At entry (r, j) both are
      out_w(r)·(Σ_l x(r,l)·W_out(l,j) + Σ_l sf(r,l)·W_out(128+l,j) + b_out(j))
    + in_w(r)·(Σ_l x(r,l)·W_in(l,j)  + Σ_l sf(r,l)·W_in(128+l,j)  + b_in(j)),
  the reference's one sum over 256 joined entries being the sum over its first 128 plus the sum over its last 128:
  addition of extended reals is commutative and associative, so the inputs' finiteness is never used.

  The modules: NodeUpdate (the formula, both spellings, and the split of the sum), BodyValue (one grid step's block),
  ArrayValue (the blocks tile the padded output array), HostSide (pads, halves and the final cut read at an index),
  KernelRun (the kernel program's run with its result), RefSide (the reference's result). The frames of the two kernel
  programs and the reference's run are the generated modules'.
-/
import proofs.«102750_j79525614453056_1_alg».proof.Defs
import proofs.«102750_j79525614453056_1_alg».proof.Proof.Gen.Kernel
import proofs.«102750_j79525614453056_1_alg».proof.Proof.Gen.Kernel.Skeleton
import proofs.«102750_j79525614453056_1_alg».proof.Proof.Gen.Kernel.Launch
import proofs.«102750_j79525614453056_1_alg».proof.Proof.Gen.Kernel.Points
import proofs.«102750_j79525614453056_1_alg».proof.Proof.Gen.Kernel.Frame
import proofs.«102750_j79525614453056_1_alg».proof.Proof.Gen.KernelIdeal
import proofs.«102750_j79525614453056_1_alg».proof.Proof.Gen.KernelIdeal.Skeleton
import proofs.«102750_j79525614453056_1_alg».proof.Proof.Gen.KernelIdeal.Launch
import proofs.«102750_j79525614453056_1_alg».proof.Proof.Gen.KernelIdeal.Points
import proofs.«102750_j79525614453056_1_alg».proof.Proof.Gen.KernelIdeal.Frame
import proofs.«102750_j79525614453056_1_alg».proof.Proof.Gen.ReferenceIdeal
import proofs.«102750_j79525614453056_1_alg».proof.Proof.Gen.ReferenceIdeal.Run
import proofs.«102750_j79525614453056_1_alg».proof.Proof.Gen.ReferenceIdeal.Read
import proofs.«102750_j79525614453056_1_alg».proof.Proof.Gen.Pre_finite_inputs
import proofs.«102750_j79525614453056_1_alg».proof.Proof.KernelRun
import proofs.«102750_j79525614453056_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The two programs compute the aggregated neighbour rows by the same host lines: one term, of any arguments. -/
theorem aggregate_same (x : FVec Ideal Cert.KernelIdeal.S100000x128 .f32) (src dst : IVec Cert.KernelIdeal.S1600000 32) :
    Cert.ReferenceIdeal.Read.val_main_v9 (F := Ideal) x src dst = Cert.KernelIdeal.HostAggregate.aggregated x src dst := rfl

/-- Both programs end with the node update of the arguments and the aggregated rows: the kernel program by its run read
    block by block, the reference by its run read entry by entry; the aggregated rows are the same host lines' term in
    both, over arguments that agree. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefSide.result_eq]
  obtain ⟨a0, a1, a2, a3, a4, a5, a6, a7, a8⟩ := hagree c
  rw [a0, a1, a2, a3, a4, a5, a6, a7, a8, aggregate_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
